-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S16x2048x256 : Shape := ⟨3, ![16, 2048, 256]⟩
abbrev S16 : Shape := ⟨1, ![16]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x2048x256 : S_.BroadcastsInDim S16x2048x256 (![] : Fin 0 → Fin S16x2048x256.rank)
  reducesTo_S16x2048x256_S_d0_1_2 : S16x2048x256.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16x4096x256 .f32) (main_arg1 : FVec F S16x2048x256 .f32) (main_arg2 : FVec F S16 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16x4096x256 : Shape := ⟨3, ![16, 4096, 256]⟩
abbrev S16x2048x256 : Shape := ⟨3, ![16, 2048, 256]⟩
abbrev S16 : Shape := ⟨1, ![16]⟩
abbrev S16x1 : Shape := ⟨2, ![16, 1]⟩
abbrev S16x128 : Shape := ⟨2, ![16, 128]⟩
abbrev S8x512x256 : Shape := ⟨3, ![8, 512, 256]⟩
abbrev S8x128 : Shape := ⟨2, ![8, 128]⟩
abbrev S8x512 : Shape := ⟨2, ![8, 512]⟩
abbrev S8x512x1 : Shape := ⟨3, ![8, 512, 1]⟩
abbrev S8x512x512 : Shape := ⟨3, ![8, 512, 512]⟩
abbrev S8 : Shape := ⟨1, ![8]⟩
abbrev S8x1 : Shape := ⟨2, ![8, 1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S16x4096x256, .f32⟩
  | .hbm, ⟨1, _⟩ => ⟨S16x2048x256, .f32⟩
  | .hbm, ⟨2, _⟩ => ⟨S16, .f32⟩
  | .hbm, ⟨3, _⟩ => ⟨S16x1, .f32⟩
  | .hbm, ⟨4, _⟩ => ⟨S16x128, .f32⟩
  | .hbm, ⟨5, _⟩ => ⟨S16x128, .f32⟩
  | .hbm, ⟨6, _⟩ => ⟨S16x1, .f32⟩
  | .hbm, ⟨7, _⟩ => ⟨S16, .f32⟩
  | .hbm, ⟨8, _⟩ => ⟨S_, .f32⟩
  | .hbm, ⟨9, _⟩ => ⟨S_, .f32⟩
  | .local _ .vmem, ⟨0, _⟩ => ⟨S8x512x256, .f32⟩
  | .local _ .vmem, ⟨1, _⟩ => ⟨S8x512x256, .f32⟩
  | .local _ .vmem, ⟨2, _⟩ => ⟨S8x512x256, .f32⟩
  | .local _ .vmem, ⟨3, _⟩ => ⟨S8x512x256, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x512, .f32⟩
  | .local _ .vmem, ⟨9, _⟩ => ⟨S8x128, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond4 (i : grid0.Coords) : BitVec 1 :=
  let arg1 : BitVec 32 := BitVec.ofNat 32 (i 1).val
  let c3_i32 : BitVec 32 := 3#32
  let v38 : BitVec 1 := Scalar.cmpi .eq arg1 c3_i32
  let arg2 : BitVec 32 := BitVec.ofNat 32 (i 2).val
  let c7_i32_19 : BitVec 32 := 7#32
  let v39 : BitVec 1 := Scalar.cmpi .eq arg2 c7_i32_19
  let v40 : BitVec 1 := Scalar.andi v38 v39
  let v41 : BitVec 32 := Scalar.extui v40
  let c0_i32_20 : BitVec 32 := 0#32
  let v42 : BitVec 1 := Scalar.cmpi .ne v41 c0_i32_20
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S16_S16x1 : S16.ShapeCasts S16x1
  bcast_S16x1_S16x128_0_1 : S16x1.BroadcastsInDim S16x128 (![0, 1] : Fin 2 → Fin S16x128.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x256_S8x512x256_0_0_0 : ∀ a, (![0, 0, 0] : Fin 3 → Nat) a + S8x512x256.size a ≤ S8x512x256.size a
  h_S8x512x256 : 0 < S8x512x256.numel
  reduces_S8x512x256_S8x512 : S8x512x256.Reduces [2] S8x512
  shapeCasts_S8x512_S8x512x1 : S8x512.ShapeCasts S8x512x1
  broadcasts_S8x512x1_S8x512x256 : S8x512x1.Broadcasts S8x512x256
  bitsLt_bf16_f32 : FTy.bits .bf16 < FTy.bits .f32
  reduces_S8x512x512_S8x512 : S8x512x512.Reduces [1] S8x512
  reduces_S8x512_S8 : S8x512.Reduces [1] S8
  shapeCasts_S8_S8x1 : S8.ShapeCasts S8x1
  shapeCasts_S8x1_S8x1 : S8x1.ShapeCasts S8x1
  broadcasts_S8x1_S8x128 : S8x1.Broadcasts S8x128
  slices_S16x128_S16x1_0_0 : S16x128.Slices ![0, 0] S16x1
  shapeCasts_S16x1_S16 : S16x1.ShapeCasts S16
  reducesTo_S16_S_d0 : S16.ReducesTo [0] S_
  h_S_ : 0 < S_.numel
  dot_S8x512x256_S8x512x256_S8x512x512_2_2_1_1_0_0_wf : DotDims.WF S8x512x256 S8x512x256 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S16x4096x256.size a
  hwx0_0 : ∀ i : grid0.Coords, EltTy.bits .f32 = 32 ∨ (Rect.block (s := S16x4096x256) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S16x2048x256.size a
  hwx0_1 : ∀ i : grid0.Coords, EltTy.bits .f32 = 32 ∨ (Rect.block (s := S16x2048x256) S8x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S8x512x256_S8x512x256_S8x512x512_2_2_1_1_0_0 : DotDims S8x512x256 S8x512x256 S8x512x512 where
  lhsContracting := [2]
  rhsContracting := [2]
  lhsNonContracting := [1]
  rhsNonContracting := [1]
  lhsBatch := [0]
  rhsBatch := [0]
  wf := dot_S8x512x256_S8x512x256_S8x512x512_2_2_1_1_0_0_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x4096x256 : Shape := ⟨3, ![16, 4096, 256]⟩
abbrev S16x2048x256 : Shape := ⟨3, ![16, 2048, 256]⟩
abbrev S16 : Shape := ⟨1, ![16]⟩
abbrev S_ : Shape := ⟨0, ![]⟩
abbrev S16x4096 : Shape := ⟨2, ![16, 4096]⟩
abbrev S16x4096x1 : Shape := ⟨3, ![16, 4096, 1]⟩
abbrev S16x2048 : Shape := ⟨2, ![16, 2048]⟩
abbrev S16x2048x1 : Shape := ⟨3, ![16, 2048, 1]⟩
abbrev S16x4096x2048 : Shape := ⟨3, ![16, 4096, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x2048x256, .f32⟩
  | .hbm, ⟨2, _⟩ => ⟨S16, .f32⟩
  | .hbm, ⟨3, _⟩ => ⟨S16x4096x256, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S16x4096x256, .f32⟩
  | .hbm, ⟨12, _⟩ => ⟨S16x4096x256, .f32⟩
  | .hbm, ⟨13, _⟩ => ⟨S16x2048x256, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x256, .f32⟩
  | .hbm, ⟨22, _⟩ => ⟨S16x2048x256, .f32⟩
  | .hbm, ⟨23, _⟩ => ⟨S16x4096x2048, .f32⟩
  | .hbm, ⟨24, _⟩ => ⟨S_, .f32⟩
  | .hbm, ⟨25, _⟩ => ⟨S16x2048, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .i1⟩
  | .hbm, ⟨36, _⟩ => ⟨S_, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S_, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  reducesTo_S16x4096x256_S16x4096_d2 : S16x4096x256.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)
  reducesTo_S16x2048x256_S16x2048_d2 : S16x2048x256.ReducesTo [2] S16x2048
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x256_0_1_2 : S16x2048x1.BroadcastsInDim S16x2048x256 (![0, 1, 2] : Fin 3 → Fin S16x2048x256.rank)
  reducesTo_S16x4096x2048_S16x2048_d1 : S16x4096x2048.ReducesTo [1] S16x2048
  reducesTo_S16x2048_S16_d1 : S16x2048.ReducesTo [1] S16
  bcast_S_S16 : S_.BroadcastsInDim S16 (![] : Fin 0 → Fin S16.rank)
  reducesTo_S16_S_d0 : S16.ReducesTo [0] S_
  dot_S16x4096x256_S16x2048x256_S16x4096x2048_2_2_1_1_0_0_wf : DotDims.WF S16x4096x256 S16x2048x256 S16x4096x2048 [2] [2] [1] [1] [0] [0]

variable [Facts₀]

def dot_S16x4096x256_S16x2048x256_S16x4096x2048_2_2_1_1_0_0 : DotDims S16x4096x256 S16x2048x256 S16x4096x2048 where
  lhsContracting := [2]
  rhsContracting := [2]
  lhsNonContracting := [1]
  rhsNonContracting := [1]
  lhsBatch := [0]
  rhsBatch := [0]
  wf := dot_S16x4096x256_S16x2048x256_S16x4096x2048_2_2_1_1_0_0_wf

class Facts : Prop extends Facts₀ where

variable [Facts]
-- ==== Proof.Pieces.lean ====
/-
  What each control case of the kernel body leaves in the two carried scratch arrays and, in the last case, in the
  output block, as plain terms over the body's arithmetic.

  The running maximum (an [8,512] scratch) is always overwritten by the elementwise maximum of its previous contents
  (minus infinity at the first row stretch of a sweep) and the new stretch's column maxima. The running sum (an
  [8,128] scratch) is cleared at the first point of a batch block, left alone inside a sweep, and at the last row
  stretch of a sweep receives the row sums of the finished maxima. At the very last point of a batch block the output
  block is the squared distance of the running sum's mean from the target.
-/
import proofs.«176510_j35716948033830_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First point of a batch block: both scratch arrays are started afresh -/

theorem sout0_A_0_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : cond0_0 i) (hc1 : cond0_1 i) (hc2 : ¬cond0_2 i) (hc3 : ¬cond0_3 i) (x0 : Vec F S8x512x256 .f32) (x1 : Vec F S8x512x256 .f32) (x2 : Vec F S8x128 .f32) :
    sout0_A_0 c i arg3 harg3 arg4 harg4 arg5 harg5 arg6 harg6 arg7 harg7 arg8 harg8 hc0 hc1 hc2 hc3 x0 x1 x2 = k0_pay1 (k0_pay6 x0 x1 (k0_pay5 (F := F))) := by
  unfold sout0_A_0
  rw [View.read_writes_eq_canon _ _ _ (scover0_A_0 c i arg3 harg3 arg4 harg4 arg5 harg5 arg6 harg6 arg7 harg7 arg8 harg8 hc0 hc1 hc2 hc3 x0 x1 x2)]
  unfold kernelRun0_A
  dsimp only
  sl_unfold_words
  rw [View.canon_cons_unit_zero (S := S8x512) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]
theorem sout0_A_1_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : cond0_0 i) (hc1 : cond0_1 i) (hc2 : ¬cond0_2 i) (hc3 : ¬cond0_3 i) (x0 : Vec F S8x512x256 .f32) (x1 : Vec F S8x512x256 .f32) (x2 : Vec F S8x128 .f32) :
    sout0_A_1 c i arg3 harg3 arg4 harg4 arg5 harg5 arg6 harg6 arg7 harg7 arg8 harg8 hc0 hc1 hc2 hc3 x0 x1 x2 = k0_pay4 (F := F) := by
  unfold sout0_A_1
  rw [View.read_writes_eq_canon _ _ _ (scover0_A_1 c i arg3 harg3 arg4 harg4 arg5 harg5 arg6 harg6 arg7 harg7 arg8 harg8 hc0 hc1 hc2 hc3 x0 x1 x2)]
  unfold kernelRun0_A
  dsimp only
  sl_unfold_words
  rw [View.canon_unit_zero (S := S8x128) hz2]

/-! ## Inside a sweep: the maximum grows, the sum rests -/

theorem sout0_B_0_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : ¬cond0_0 i) (hc1 : ¬cond0_1 i) (hc2 : ¬cond0_2 i) (hc3 : ¬cond0_3 i) (x0 : Vec F S8x512x256 .f32) (x1 : Vec F S8x512x256 .f32) (x2 : Vec F S8x128 .f32) (xs0 : Vec F S8x512 .f32) (xs1 : Vec F S8x128 .f32) :
    sout0_B_0 c i arg3 harg3 arg4 harg4 arg5 harg5 arg6 harg6 arg7 harg7 arg8 harg8 hc0 hc1 hc2 hc3 x0 x1 x2 xs0 xs1 = k0_pay1 (k0_pay6 x0 x1 xs0) := by
  unfold sout0_B_0
  rw [View.read_writes_eq_canon _ _ _ (scover0_B_0 c i arg3 harg3 arg4 harg4 arg5 harg5 arg6 harg6 arg7 harg7 arg8 harg8 hc0 hc1 hc2 hc3 x0 x1 x2 xs0 xs1)]
  unfold kernelRun0_B
  dsimp only
  sl_unfold_words
  rw [View.canon_unit_zero (S := S8x512) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]

/-! ## Last row stretch of a sweep: the finished maxima are summed into the running sum -/

theorem sout0_C_0_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : ¬cond0_0 i) (hc1 : ¬cond0_1 i) (hc2 : cond0_2 i) (hc3 : ¬cond0_3 i) (x0 : Vec F S8x512x256 .f32) (x1 : Vec F S8x512x256 .f32) (x2 : Vec F S8x128 .f32) (xs0 : Vec F S8x512 .f32) (xs1 : Vec F S8x128 .f32) :
    sout0_C_0 c i arg3 harg3 arg4 harg4 arg5 harg5 arg6 harg6 arg7 harg7 arg8 harg8 hc0 hc1 hc2 hc3 x0 x1 x2 xs0 xs1 = k0_pay1 (k0_pay6 x0 x1 xs0) := by
  unfold sout0_C_0
  rw [View.read_writes_eq_canon _ _ _ (scover0_C_0 c i arg3 harg3 arg4 harg4 arg5 harg5 arg6 harg6 arg7 harg7 arg8 harg8 hc0 hc1 hc2 hc3 x0 x1 x2 xs0 xs1)]
  unfold kernelRun0_C
  dsimp only
  sl_unfold_words
  rw [View.canon_unit_zero (S := S8x512) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]
theorem sout0_C_1_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : ¬cond0_0 i) (hc1 : ¬cond0_1 i) (hc2 : cond0_2 i) (hc3 : ¬cond0_3 i) (x0 : Vec F S8x512x256 .f32) (x1 : Vec F S8x512x256 .f32) (x2 : Vec F S8x128 .f32) (xs0 : Vec F S8x512 .f32) (xs1 : Vec F S8x128 .f32) :
    sout0_C_1 c i arg3 harg3 arg4 harg4 arg5 harg5 arg6 harg6 arg7 harg7 arg8 harg8 hc0 hc1 hc2 hc3 x0 x1 x2 xs0 xs1 = k0_pay2 (k0_pay1 (k0_pay6 x0 x1 xs0)) xs1 := by
  unfold sout0_C_1
  rw [View.read_writes_eq_canon _ _ _ (scover0_C_1 c i arg3 harg3 arg4 harg4 arg5 harg5 arg6 harg6 arg7 harg7 arg8 harg8 hc0 hc1 hc2 hc3 x0 x1 x2 xs0 xs1)]
  unfold kernelRun0_C
  dsimp only
  sl_unfold_words
  rw [View.canon_unit_zero (S := S8x128) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]

/-! ## First row stretch of a later sweep: the maximum is started afresh, the sum rests -/

theorem sout0_D_0_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : ¬cond0_0 i) (hc1 : cond0_1 i) (hc2 : ¬cond0_2 i) (hc3 : ¬cond0_3 i) (x0 : Vec F S8x512x256 .f32) (x1 : Vec F S8x512x256 .f32) (x2 : Vec F S8x128 .f32) (xs1 : Vec F S8x128 .f32) :
    sout0_D_0 c i arg3 harg3 arg4 harg4 arg5 harg5 arg6 harg6 arg7 harg7 arg8 harg8 hc0 hc1 hc2 hc3 x0 x1 x2 xs1 = k0_pay1 (k0_pay6 x0 x1 (k0_pay5 (F := F))) := by
  unfold sout0_D_0
  rw [View.read_writes_eq_canon _ _ _ (scover0_D_0 c i arg3 harg3 arg4 harg4 arg5 harg5 arg6 harg6 arg7 harg7 arg8 harg8 hc0 hc1 hc2 hc3 x0 x1 x2 xs1)]
  unfold kernelRun0_D
  dsimp only
  sl_unfold_words
  rw [View.canon_cons_unit_zero (S := S8x512) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]

/-! ## Last point of a batch block: as the last row stretch, and the output block is written -/

theorem sout0_E_0_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : ¬cond0_0 i) (hc1 : ¬cond0_1 i) (hc2 : cond0_2 i) (hc3 : cond0_3 i) (x0 : Vec F S8x512x256 .f32) (x1 : Vec F S8x512x256 .f32) (x2 : Vec F S8x128 .f32) (xs0 : Vec F S8x512 .f32) (xs1 : Vec F S8x128 .f32) :
    sout0_E_0 c i arg3 harg3 arg4 harg4 arg5 harg5 arg6 harg6 arg7 harg7 arg8 harg8 hc0 hc1 hc2 hc3 x0 x1 x2 xs0 xs1 = k0_pay1 (k0_pay6 x0 x1 xs0) := by
  unfold sout0_E_0
  rw [View.read_writes_eq_canon _ _ _ (scover0_E_0 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero (S := S8x512) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]
theorem sout0_E_1_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : ¬cond0_0 i) (hc1 : ¬cond0_1 i) (hc2 : cond0_2 i) (hc3 : cond0_3 i) (x0 : Vec F S8x512x256 .f32) (x1 : Vec F S8x512x256 .f32) (x2 : Vec F S8x128 .f32) (xs0 : Vec F S8x512 .f32) (xs1 : Vec F S8x128 .f32) :
    sout0_E_1 c i arg3 harg3 arg4 harg4 arg5 harg5 arg6 harg6 arg7 harg7 arg8 harg8 hc0 hc1 hc2 hc3 x0 x1 x2 xs0 xs1 = k0_pay2 (k0_pay1 (k0_pay6 x0 x1 xs0)) xs1 := by
  unfold sout0_E_1
  rw [View.read_writes_eq_canon _ _ _ (scover0_E_1 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero (S := S8x128) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]
theorem out0_E_3_eq (c : Dev nD) (i : grid0.Coords) (arg3 : Memref sig .tc .vmem S8x512x256 .f32) (harg3 : arg3.IsWhole) (arg4 : Memref sig .tc .vmem S8x512x256 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x512 .f32) (harg7 : arg7.IsWhole) (arg8 : Memref sig .tc .vmem S8x128 .f32) (harg8 : arg8.IsWhole) (hc0 : ¬cond0_0 i) (hc1 : ¬cond0_1 i) (hc2 : cond0_2 i) (hc3 : cond0_3 i) (x0 : Vec F S8x512x256 .f32) (x1 : Vec F S8x512x256 .f32) (x2 : Vec F S8x128 .f32) (xs0 : Vec F S8x512 .f32) (xs1 : Vec F S8x128 .f32) :
    out0_E_3 c i arg3 harg3 arg4 harg4 arg5 harg5 arg6 harg6 arg7 harg7 arg8 harg8 hc0 hc1 hc2 hc3 x0 x1 x2 xs0 xs1 = k0_pay3 (k0_pay2 (k0_pay1 (k0_pay6 x0 x1 xs0)) xs1) x2 := by
  unfold out0_E_3
  rw [View.read_writes_eq_canon _ _ _ (cover0_E_3 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero (S := S8x128) hz2]
  simp only [View.readAt_eq_ld, harg3.read_unread, harg4.read_unread, harg5.read_unread, harg7.read_unread, harg8.read_unread, View.ld_unit_zero (S := S8x512x256) hz3, View.ld_unit_zero (S := S8x512) hz2, View.ld_unit_zero (S := S8x128) hz2, View.readCov_unit_zero (S := S8x512) _ hz2, View.readCov_unit_zero (S := S8x128) _ hz2]

end Cert.KernelIdeal.Pieces

end
-- ==== Proof.Spec.lean ====
/-
  The mathematics of the sequence-similarity loss, over the extended reals, free of any program.

  For a batch entry b, row n of the first array and row m of the second are scaled to unit length (their Euclidean
  length clipped below by a small constant), `cosim b n m` is the inner product of the two scaled rows, `best b m` the
  largest `cosim b n m` over all n, `total b` the sum of `best b m` over all m, and the loss of b the square of
  `total b / 2048 - y b`; the result is the sum of the losses.

  A tiled evaluation takes the maximum over n in consecutive stretches of 512 rows (`accMax`: a running maximum that
  starts at minus infinity) and the sum over m in consecutive stretches of 512 columns (`accSum`: a running sum that
  starts at zero). `accMax_full` and `accSum_full` say that eight stretches of the maximum and four of the sum are the
  whole maximum and the whole sum: only commutativity, associativity and the order properties of max and + are used,
  so nothing here needs an entry to be finite.
-/
import Idealize.ShloMosaic.PureOps.Ideal
import Idealize.ShloMosaic.PureOps.Ideal.Laws
import Idealize.ShloMosaic.Lib.ValueIdx
import Mathlib.Data.Finset.Fold
import Mathlib.Algebra.BigOperators.Intervals
import Mathlib.Algebra.BigOperators.Fin

noncomputable section

namespace Cert.SeqLoss

open Idealize.ShloMosaic Idealize.ShloMosaic.ValueIdx Finset

/-- The clip under a row's length, the start of a running maximum, the start of a running sum, and the divisor of the
    mean, each kept as the 32-bit pattern both programs carry. -/
def eps : EReal := Ideal.ofBits .f32 0x2B8CBCCC#32
def negInf : EReal := Ideal.ofBits .f32 0xFF800000#32
def width : EReal := Ideal.ofBits .f32 0x45000000#32

/-- The Euclidean length of a row, clipped below by `eps`. -/
def len {K : ℕ} (r : Fin K → EReal) : EReal := max (Ideal.sqrt (∑ d, r d * r d)) eps

/-- A row scaled by its clipped length. -/
def dir {K : ℕ} (r : Fin K → EReal) (d : Fin K) : EReal := Ideal.div (r d) (len r)

/-- The inner product of two scaled rows. -/
def dotp {K : ℕ} (u v : Fin K → EReal) : EReal := ∑ d, dir u d * dir v d

/-- Row (a, n) of a three-axis array, addressed by natural numbers (zero outside the array). -/
def rows {A N K : ℕ} (X : (⟨3, ![A, N, K]⟩ : Shape).Idx → EReal) (a n : ℕ) : Fin K → EReal :=
  fun d => if h : a < A ∧ n < N then X (ix3 ⟨a, h.1⟩ ⟨n, h.2⟩ d) else 0

theorem rows_of_lt {A N K : ℕ} (X : (⟨3, ![A, N, K]⟩ : Shape).Idx → EReal) (a n : ℕ) (ha : a < A) (hn : n < N) :
    rows X a n = fun d => X (ix3 ⟨a, ha⟩ ⟨n, hn⟩ d) := by
  funext d; unfold rows; rw [dif_pos ⟨ha, hn⟩]

/-- Entry a of a one-axis array, addressed by a natural number (zero outside the array). -/
def entry {A : ℕ} (Y : (⟨1, ![A]⟩ : Shape).Idx → EReal) (a : ℕ) : EReal :=
  if h : a < A then Y (ix1 ⟨a, h⟩) else 0

theorem entry_of_lt {A : ℕ} (Y : (⟨1, ![A]⟩ : Shape).Idx → EReal) (a : ℕ) (ha : a < A) : entry Y a = Y (ix1 ⟨a, ha⟩) := by
  unfold entry; rw [dif_pos ha]

/-! ## A maximum over 4096 rows taken in eight stretches of 512 -/

section Max
variable (C : ℕ → EReal)

/-- The maximum over one stretch of 512 rows, from minus infinity. -/
def tileMax (j : ℕ) : EReal := (univ : Finset (Fin 512)).fold max negInf (fun r => C (j * 512 + r.val))

/-- The running maximum after k stretches. -/
def accMax : ℕ → EReal
  | 0 => negInf
  | k + 1 => max (accMax k) (tileMax C k)

/-- The maximum over all 4096 rows, from minus infinity. -/
def fullMax : EReal := (univ : Finset (Fin 4096)).fold max negInf (fun n => C n.val)

theorem negInf_le_accMax (k : ℕ) : negInf ≤ accMax C k := by
  induction k with
  | zero => exact le_refl _
  | succ k ih => exact le_trans ih (le_max_left _ _)

theorem le_accMax (k n : ℕ) (hn : n < k * 512) : C n ≤ accMax C k := by
  induction k with
  | zero => omega
  | succ k ih =>
    show C n ≤ max (accMax C k) (tileMax C k)
    by_cases h : n < k * 512
    · exact le_trans (ih h) (le_max_left _ _)
    · refine le_trans ?_ (le_max_right _ _)
      unfold tileMax
      rw [Finset.le_fold_max]
      refine Or.inr ⟨⟨n - k * 512, by omega⟩, mem_univ _, ?_⟩
      show C n ≤ C (k * 512 + (n - k * 512))
      rw [show k * 512 + (n - k * 512) = n by omega]

theorem accMax_le (k : ℕ) (hk : k ≤ 8) : accMax C k ≤ fullMax C := by
  induction k with
  | zero => unfold fullMax; rw [Finset.le_fold_max]; exact Or.inl (le_refl _)
  | succ k ih =>
    show max (accMax C k) (tileMax C k) ≤ fullMax C
    refine max_le (ih (by omega)) ?_
    unfold tileMax
    rw [Finset.fold_max_le]
    refine ⟨by unfold fullMax; rw [Finset.le_fold_max]; exact Or.inl (le_refl _), fun r _ => ?_⟩
    unfold fullMax
    rw [Finset.le_fold_max]
    exact Or.inr ⟨⟨k * 512 + r.val, by have := r.isLt; omega⟩, mem_univ _, le_refl _⟩

/-- Eight stretches are the whole maximum. -/
theorem accMax_full : accMax C 8 = fullMax C := by
  refine le_antisymm (accMax_le C 8 (le_refl _)) ?_
  unfold fullMax
  rw [Finset.fold_max_le]
  exact ⟨negInf_le_accMax C 8, fun n _ => le_accMax C 8 n.val (by have := n.isLt; omega)⟩

end Max

/-! ## A sum over 2048 columns taken in four stretches of 512 -/

section Sum
variable (M : ℕ → EReal)

/-- The sum over one stretch of 512 columns. -/
def tileSum (j : ℕ) : EReal := ∑ q : Fin 512, M (j * 512 + q.val)

/-- The running sum after k stretches, from zero. -/
def accSum : ℕ → EReal
  | 0 => 0
  | k + 1 => accSum k + tileSum M k

theorem accSum_eq (k : ℕ) : accSum M k = ∑ i ∈ range (k * 512), M i := by
  induction k with
  | zero => simp [accSum]
  | succ k ih =>
    show accSum M k + tileSum M k = _
    rw [ih, show (k + 1) * 512 = k * 512 + 512 by ring, Finset.sum_range_add]
    unfold tileSum
    rw [Fin.sum_univ_eq_sum_range (fun x => M (k * 512 + x)) 512]

/-- Four stretches are the whole sum. -/
theorem accSum_full : accSum M 4 = ∑ m : Fin 2048, M m.val := by
  rw [accSum_eq, Fin.sum_univ_eq_sum_range M 2048]

end Sum

/-! ## The loss -/

section Loss
variable (X1 : (⟨3, ![16, 4096, 256]⟩ : Shape).Idx → EReal) (X2 : (⟨3, ![16, 2048, 256]⟩ : Shape).Idx → EReal)
  (Y : (⟨1, ![16]⟩ : Shape).Idx → EReal)

/-- The similarity of row n of the first array and row m of the second, in batch entry b. -/
def cosim (b m n : ℕ) : EReal := dotp (rows X1 b n) (rows X2 b m)

/-- The best similarity any row of the first array has with row m of the second. -/
def best (b m : ℕ) : EReal := fullMax (cosim X1 X2 b m)

/-- The sum of the best similarities over the rows of the second array. -/
def total (b : ℕ) : EReal := ∑ m : Fin 2048, best X1 X2 b m.val

/-- The squared distance of the mean best similarity from the target. -/
def loss (b : ℕ) : EReal :=
  (Ideal.div (total X1 X2 b) width - entry Y b) * (Ideal.div (total X1 X2 b) width - entry Y b)

/-- The sum of the losses over the batch, from the zero pattern. -/
def result : EReal := Ideal.ofBits .f32 0x00000000#32 + ∑ j : (⟨1, ![16]⟩ : Shape).Idx, loss X1 X2 Y (j 0).val

end Loss

end Cert.SeqLoss

end
-- ==== Proof.PointOuts.lean ====
/-
  What the carried scratch arrays and the output block hold after each grid point, as the body's arithmetic applied to
  the point's input blocks and to what the point before left; and which rows of the argument arrays a point's blocks are.

  Grid point t is batch block t / 32, column stretch (t / 8) % 4 and row stretch t % 8: its first block holds rows
  (t % 8) * 512 + r of the first array, its second block rows ((t / 8) % 4) * 512 + q of the second, both for batch
  entries (t / 32) * 8 + p, and its third block the same batch entries of the target spread over 128 lanes.
-/
import proofs.«176510_j35716948033830_1_alg».proof.Proof.Pieces
import proofs.«176510_j35716948033830_1_alg».proof.Proof.Spec

set_option maxRecDepth 16384

noncomputable section

namespace Cert.KernelIdeal.PointOuts

open Cert.KernelIdeal Cert.KernelIdeal.Gen Cert.SeqLoss
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The three input blocks of a point and the three arrays they are cut from, at their literal types. -/
abbrev xblk (c : Dev nD) (t : Fin cfg0.N) : Vec F S8x512x256 .f32 := iblk m c 0 t
abbrev yblk (c : Dev nD) (t : Fin cfg0.N) : Vec F S8x512x256 .f32 := iblk m c 1 t
abbrev tblk (c : Dev nD) (t : Fin cfg0.N) : Vec F S8x128 .f32 := iblk m c 2 t
abbrev arr0 (c : Dev nD) : Vec F S16x4096x256 .f32 := V m c main_arg0
abbrev arr1 (c : Dev nD) : Vec F S16x2048x256 .f32 := V m c main_arg1
abbrev arrT (c : Dev nD) : Vec F S16x128 .f32 := V m c main_v1

/-! ## The blocks' places in their arrays -/

theorem idx0 : ∀ t : Fin cfg0.N, win0_0.index t (0 : Fin 3) = t.val / 32 ∧ win0_0.index t (1 : Fin 3) = t.val % 8
    ∧ win0_0.index t (2 : Fin 3) = 0 :=
  (by decide +kernel : ∀ t : Fin grid0.N, _)

theorem idx1 : ∀ t : Fin cfg0.N, win0_1.index t (0 : Fin 3) = t.val / 32 ∧ win0_1.index t (1 : Fin 3) = t.val / 8 % 4
    ∧ win0_1.index t (2 : Fin 3) = 0 :=
  (by decide +kernel : ∀ t : Fin grid0.N, _)

theorem idx2 : ∀ t : Fin cfg0.N, win0_2.index t (0 : Fin 2) = t.val / 32 ∧ win0_2.index t (1 : Fin 2) = 0 :=
  (by decide +kernel : ∀ t : Fin grid0.N, _)

theorem idx3 : ∀ t : Fin cfg0.N, win0_3.index t (0 : Fin 2) = t.val / 32 ∧ win0_3.index t (1 : Fin 2) = 0 :=
  (by decide +kernel : ∀ t : Fin grid0.N, _)

theorem xblk_apply (c : Dev nD) (t : Fin cfg0.N) (p : Fin 8) (r : Fin 512) (k : Fin 256)
    (hb : t.val / 32 * 8 + p.val < 16) (hr : t.val % 8 * 512 + r.val < 4096) :
    xblk m c t (ix3 p r k) = arr0 m c (ix3 ⟨t.val / 32 * 8 + p.val, hb⟩ ⟨t.val % 8 * 512 + r.val, hr⟩ k) := by
  obtain ⟨e0, e1, e2⟩ := idx0 t
  show V m c main_arg0 (((cfg0.win 0).blk t).view.emb (ix3 p r k)) = V m c main_arg0 _
  refine congrArg _ (funext fun a => Fin.ext ?_)
  match a with
  | ⟨0, _⟩ => show win0_0.index t (0 : Fin 3) * 8 + 1 * p.val = t.val / 32 * 8 + p.val; omega
  | ⟨1, _⟩ => show win0_0.index t (1 : Fin 3) * 512 + 1 * r.val = t.val % 8 * 512 + r.val; omega
  | ⟨2, _⟩ => show win0_0.index t (2 : Fin 3) * 256 + 1 * k.val = k.val; omega

theorem yblk_apply (c : Dev nD) (t : Fin cfg0.N) (p : Fin 8) (q : Fin 512) (k : Fin 256)
    (hb : t.val / 32 * 8 + p.val < 16) (hq : t.val / 8 % 4 * 512 + q.val < 2048) :
    yblk m c t (ix3 p q k) = arr1 m c (ix3 ⟨t.val / 32 * 8 + p.val, hb⟩ ⟨t.val / 8 % 4 * 512 + q.val, hq⟩ k) := by
  obtain ⟨e0, e1, e2⟩ := idx1 t
  show V m c main_arg1 (((cfg0.win 1).blk t).view.emb (ix3 p q k)) = V m c main_arg1 _
  refine congrArg _ (funext fun a => Fin.ext ?_)
  match a with
  | ⟨0, _⟩ => show win0_1.index t (0 : Fin 3) * 8 + 1 * p.val = t.val / 32 * 8 + p.val; omega
  | ⟨1, _⟩ => show win0_1.index t (1 : Fin 3) * 512 + 1 * q.val = t.val / 8 % 4 * 512 + q.val; omega
  | ⟨2, _⟩ => show win0_1.index t (2 : Fin 3) * 256 + 1 * k.val = k.val; omega

theorem tblk_apply (c : Dev nD) (t : Fin cfg0.N) (p : Fin 8) (l : Fin 128) (hb : t.val / 32 * 8 + p.val < 16) :
    tblk m c t (ix2 p l) = arrT m c (ix2 ⟨t.val / 32 * 8 + p.val, hb⟩ l) := by
  obtain ⟨e0, e1⟩ := idx2 t
  show V m c main_v1 (((cfg0.win 2).blk t).view.emb (ix2 p l)) = V m c main_v1 _
  refine congrArg _ (funext fun a => Fin.ext ?_)
  match a with
  | ⟨0, _⟩ => show win0_2.index t (0 : Fin 2) * 8 + 1 * p.val = t.val / 32 * 8 + p.val; omega
  | ⟨1, _⟩ => show win0_2.index t (1 : Fin 2) * 128 + 1 * l.val = l.val; omega

/-! ## What a point leaves, case by case -/

/-- The first point of a batch block. -/
theorem outs_A (c : Dev nD) (t : Fin cfg0.N) (h0 : t.val % 32 = 0) (h1 : t.val % 8 = 0) (h2 : ¬t.val % 8 = 7) (h3 : ¬t.val % 32 = 31) :
    (outsAt0 m c t.val t.isLt).2.1 = k0_pay1 (k0_pay6 (xblk m c t) (yblk m c t) (k0_pay5 (F := F)))
    ∧ (outsAt0 m c t.val t.isLt).2.2 = k0_pay4 (F := F) := by
  rw [outsAt0_A m c t h0 h1 h2 h3]
  dsimp only
  exact ⟨Pieces.sout0_A_0_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t),
    Pieces.sout0_A_1_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t)⟩

/-- A point inside a sweep. -/
theorem outs_B (c : Dev nD) (t : Fin cfg0.N) (h0 : ¬t.val % 32 = 0) (h1 : ¬t.val % 8 = 0) (h2 : ¬t.val % 8 = 7) (h3 : ¬t.val % 32 = 31) :
    (outsAt0 m c t.val t.isLt).2.1 = k0_pay1 (k0_pay6 (xblk m c t) (yblk m c t) (outsAt0 m c (t.val - 1) (Nat.lt_of_le_of_lt (Nat.sub_le _ _) t.isLt)).2.1)
    ∧ (outsAt0 m c t.val t.isLt).2.2 = (outsAt0 m c (t.val - 1) (Nat.lt_of_le_of_lt (Nat.sub_le _ _) t.isLt)).2.2 := by
  rw [outsAt0_B m c t h0 h1 h2 h3]
  dsimp only
  exact ⟨Pieces.sout0_B_0_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2, rfl⟩

/-- The last row stretch of a sweep that is not the batch block's last. -/
theorem outs_C (c : Dev nD) (t : Fin cfg0.N) (h0 : ¬t.val % 32 = 0) (h1 : ¬t.val % 8 = 0) (h2 : t.val % 8 = 7) (h3 : ¬t.val % 32 = 31) :
    (outsAt0 m c t.val t.isLt).2.1 = k0_pay1 (k0_pay6 (xblk m c t) (yblk m c t) (outsAt0 m c (t.val - 1) (Nat.lt_of_le_of_lt (Nat.sub_le _ _) t.isLt)).2.1)
    ∧ (outsAt0 m c t.val t.isLt).2.2
        = k0_pay2 (k0_pay1 (k0_pay6 (xblk m c t) (yblk m c t) (outsAt0 m c (t.val - 1) (Nat.lt_of_le_of_lt (Nat.sub_le _ _) t.isLt)).2.1)) (outsAt0 m c (t.val - 1) (Nat.lt_of_le_of_lt (Nat.sub_le _ _) t.isLt)).2.2 := by
  rw [outsAt0_C m c t h0 h1 h2 h3]
  dsimp only
  exact ⟨Pieces.sout0_C_0_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2,
    Pieces.sout0_C_1_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2⟩

/-- The first row stretch of a later sweep. -/
theorem outs_D (c : Dev nD) (t : Fin cfg0.N) (h0 : ¬t.val % 32 = 0) (h1 : t.val % 8 = 0) (h2 : ¬t.val % 8 = 7) (h3 : ¬t.val % 32 = 31) :
    (outsAt0 m c t.val t.isLt).2.1 = k0_pay1 (k0_pay6 (xblk m c t) (yblk m c t) (k0_pay5 (F := F)))
    ∧ (outsAt0 m c t.val t.isLt).2.2 = (outsAt0 m c (t.val - 1) (Nat.lt_of_le_of_lt (Nat.sub_le _ _) t.isLt)).2.2 := by
  rw [outsAt0_D m c t h0 h1 h2 h3]
  dsimp only
  exact ⟨Pieces.sout0_D_0_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t) (outsAt0 m c (t.val - 1) (Nat.lt_of_le_of_lt (Nat.sub_le _ _) t.isLt)).2.2, rfl⟩

/-- The last point of a batch block. -/
theorem outs_E (c : Dev nD) (t : Fin cfg0.N) (h0 : ¬t.val % 32 = 0) (h1 : ¬t.val % 8 = 0) (h2 : t.val % 8 = 7) (h3 : t.val % 32 = 31) :
    (outsAt0 m c t.val t.isLt).2.1 = k0_pay1 (k0_pay6 (xblk m c t) (yblk m c t) (outsAt0 m c (t.val - 1) (Nat.lt_of_le_of_lt (Nat.sub_le _ _) t.isLt)).2.1)
    ∧ (outsAt0 m c t.val t.isLt).2.2
        = k0_pay2 (k0_pay1 (k0_pay6 (xblk m c t) (yblk m c t) (outsAt0 m c (t.val - 1) (Nat.lt_of_le_of_lt (Nat.sub_le _ _) t.isLt)).2.1)) (outsAt0 m c (t.val - 1) (Nat.lt_of_le_of_lt (Nat.sub_le _ _) t.isLt)).2.2
    ∧ (outsAt0 m c t.val t.isLt).1
        = k0_pay3 (k0_pay2 (k0_pay1 (k0_pay6 (xblk m c t) (yblk m c t) (outsAt0 m c (t.val - 1) (Nat.lt_of_le_of_lt (Nat.sub_le _ _) t.isLt)).2.1)) (outsAt0 m c (t.val - 1) (Nat.lt_of_le_of_lt (Nat.sub_le _ _) t.isLt)).2.2) (tblk m c t) := by
  rw [outsAt0_E m c t h0 h1 h2 h3]
  dsimp only
  exact ⟨Pieces.sout0_E_0_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2,
    Pieces.sout0_E_1_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2,
    Pieces.out0_E_3_eq (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (xblk m c t) (yblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2⟩

end Cert.KernelIdeal.PointOuts

end
-- ==== Proof.LibRank3Layout.lean ====
/-
  Layout operations and one-axis reductions of small-rank arrays, read at an index built from its coordinates.

  Inserting the dropped coordinate into a result index of a one-axis reduction gives the plain coordinate tuple
  (`lift_last3`, `lift_mid3`, `lift_last2`); a trailing unit axis added by a reshape moves nothing
  (`shapeCast_ab_ab1_apply`, `shapeCast_a_a1_apply`); and spreading a trailing unit axis repeats the one entry
  along it (`broadcastTo_ab1_abc_apply`, `broadcastTo_a1_ab_apply`). With them a sum (from the zero pattern) or a maximum
  (from the pattern of minus infinity) along an axis of a rank-2 or rank-3 vector reads as a sum or a fold of max over
  that axis's coordinates at any extents; the evidence that the accumulator is the neutral word is taken as an equation
  between the two literals, which is how a printed program carries it. Library
  imports only.
-/
import Idealize.ShloMosaic.PureOps.Ideal.Laws
import Idealize.ShloMosaic.Lib.ValueIdx
import Idealize.ShloMosaic.Lib.Pipeline.Value

noncomputable section

namespace Cert.LibRank3Layout

open Idealize.ShloMosaic Idealize.ShloMosaic.ValueIdx

variable {α : Type}

/-- In an [a, b, c] shape reduced along its last axis, the index over (p, r) with `k` inserted is (p, r, k). -/
theorem lift_last3 {a b c : ℕ} (h : Shape.Reduces ⟨3, ![a, b, c]⟩ [2] ⟨2, ![a, b]⟩) (p : Fin a) (r : Fin b) (k : Fin c) :
    h.lift (ix2 p r) k = ix3 p r k :=
  funext fun e => Fin.ext (by match e with | ⟨0, _⟩ => rfl | ⟨1, _⟩ => rfl | ⟨2, _⟩ => rfl)

/-- In an [a, b, c] shape reduced along its middle axis, the index over (p, q) with `r` inserted is (p, r, q). -/
theorem lift_mid3 {a b c : ℕ} (h : Shape.Reduces ⟨3, ![a, b, c]⟩ [1] ⟨2, ![a, c]⟩) (p : Fin a) (q : Fin c) (r : Fin b) :
    h.lift (ix2 p q) r = ix3 p r q :=
  funext fun e => Fin.ext (by match e with | ⟨0, _⟩ => rfl | ⟨1, _⟩ => rfl | ⟨2, _⟩ => rfl)

/-- In an [a, b] shape reduced along its last axis, the index over p with `q` inserted is (p, q). -/
theorem lift_last2 {a b : ℕ} (h : Shape.Reduces ⟨2, ![a, b]⟩ [1] ⟨1, ![a]⟩) (p : Fin a) (q : Fin b) :
    h.lift (ix1 p) q = ix2 p q :=
  funext fun e => Fin.ext (by match e with | ⟨0, _⟩ => rfl | ⟨1, _⟩ => rfl)

/-- The sum along the last axis of an [a, b, c] vector, at (p, r). -/
theorem multiReduction_add_last3 {a b c : ℕ} (src : FVec Ideal ⟨3, ![a, b, c]⟩ .f32)
    (h : Shape.Reduces ⟨3, ![a, b, c]⟩ [2] ⟨2, ![a, b]⟩) (hφ : FKind.Formats .f32) (hacc : (0x00000000#32 : BitVec 32) = 0x00000000#32)
    (p : Fin a) (r : Fin b) :
    multiReduction .add [2] ⟨2, ![a, b]⟩ src 0x00000000#32 h hφ hacc (ix2 p r) = ∑ k : Fin c, src (ix3 p r k) := by
  refine (Ideal.multiReduction_add_single src 0x00000000#32 h hφ hacc (ix2 p r)).trans ?_
  show ∑ k : Fin c, src (h.lift (ix2 p r) k) = _
  exact Finset.sum_congr rfl fun k _ => congrArg src (lift_last3 h p r k)

/-- The maximum along the middle axis of an [a, b, c] vector, at (p, q): the fold of max from the accumulator's value. -/
theorem multiReduction_max_mid3 {a b c : ℕ} (src : FVec Ideal ⟨3, ![a, b, c]⟩ .f32)
    (h : Shape.Reduces ⟨3, ![a, b, c]⟩ [1] ⟨2, ![a, c]⟩) (hφ : FKind.Formats .f32) (hacc : (0xFF800000#32 : BitVec 32) = 0xFF800000#32)
    (p : Fin a) (q : Fin c) :
    multiReduction .maximumf [1] ⟨2, ![a, c]⟩ src 0xFF800000#32 h hφ hacc (ix2 p q)
      = (Finset.univ : Finset (Fin b)).fold max (Ideal.ofBits .f32 0xFF800000#32) (fun r => src (ix3 p r q)) := by
  refine (Ideal.multiReduction_maximumf_single src 0xFF800000#32 h hφ hacc (ix2 p q)).trans ?_
  show (Finset.univ : Finset (Fin b)).fold max (Ideal.ofBits .f32 0xFF800000#32) (fun r => src (h.lift (ix2 p q) r)) = _
  exact congrArg (fun f => (Finset.univ : Finset (Fin b)).fold max (Ideal.ofBits .f32 0xFF800000#32) f)
    (funext fun r => congrArg src (lift_mid3 h p q r))

/-- The sum along the last axis of an [a, b] vector, at p. -/
theorem multiReduction_add_last2 {a b : ℕ} (src : FVec Ideal ⟨2, ![a, b]⟩ .f32)
    (h : Shape.Reduces ⟨2, ![a, b]⟩ [1] ⟨1, ![a]⟩) (hφ : FKind.Formats .f32) (hacc : (0x00000000#32 : BitVec 32) = 0x00000000#32) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  show ∑ q : Fin b, src (h.lift (ix1 p) q) = _
  exact Finset.sum_congr rfl fun q _ => congrArg src (lift_last2 h p q)

/-- An [a, b] array cast to [a, b, 1] reads, at (p, r, u), the operand at (p, r). -/
theorem shapeCast_ab_ab1_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_two, Shape.rowMajor_val_three]
    show p.val * b + r.val = (p.val * b + r.val) * 1 + u.val
    rw [hu, Nat.mul_one, Nat.add_zero])

/-- An [a] array cast to [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, b, 1] array broadcast to [a, b, c] reads, at (p, r, k), the operand at (p, r, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (k : Fin c) :
    broadcastTo ⟨3, ![a, b, c]⟩ v h (ix3 p r k) = v (ix3 p r (0 : Fin 1)) := by
  refine broadcastTo_apply v h (ix3 p r k) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An [a, 1] array broadcast to [a, b] reads, at (p, l), the operand at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

end Cert.LibRank3Layout

end
-- ==== Proof.Pay.lean ====
/-
  The arithmetic of the kernel body, read entry by entry over the extended reals.

  One grid point holds a block of 512 rows of the first array and a block of 512 rows of the second, for 8 batch
  entries. Every row of either block is divided by its clipped Euclidean length, the batched product of the two
  scaled blocks is the 512 by 512 table of similarities, its column maxima are folded into the running maximum
  (`pay6_apply`), a finished running maximum's row sums are added to the running sum (`pay2_apply`), and the output
  is the square of the running sum's mean less the target (`pay3_apply`). The narrowing of the scaled rows to
  16-bit floats before the product changes nothing over the extended reals.
-/
import proofs.«176510_j35716948033830_1_alg».proof.Proof.Gen.KernelIdeal.Skeleton
import proofs.«176510_j35716948033830_1_alg».proof.Proof.Spec
import proofs.«176510_j35716948033830_1_alg».proof.Proof.LibRank3Layout

set_option maxRecDepth 16384

noncomputable section

namespace Cert.KernelIdeal.Pay

open Cert.KernelIdeal Cert.KernelIdeal.Gen Cert.SeqLoss Cert.LibRank3Layout
open Idealize.ShloMosaic Idealize.ShloMosaic.ValueIdx

/-! ## The operand indices of the batched product -/

theorem lhs_0 (i : S8x512x512.Idx) (q : dot_S8x512x256_S8x512x256_S8x512x512_2_2_1_1_0_0.contr.Idx) : (dot_S8x512x256_S8x512x256_S8x512x512_2_2_1_1_0_0.lhsIdx i q 0).val = (i 0).val := by
  unfold DotDims.lhsIdx
  rw [dif_pos (show (0 : Fin S8x512x256.rank) ∈ dot_S8x512x256_S8x512x256_S8x512x512_2_2_1_1_0_0.lhsBatch by decide)]
  rfl
theorem lhs_1 (i : S8x512x512.Idx) (q : dot_S8x512x256_S8x512x256_S8x512x512_2_2_1_1_0_0.contr.Idx) : (dot_S8x512x256_S8x512x256_S8x512x512_2_2_1_1_0_0.lhsIdx i q 1).val = (i 1).val := by
  unfold DotDims.lhsIdx
  rw [dif_neg (show ¬(1 : Fin S8x512x256.rank) ∈ dot_S8x512x256_S8x512x256_S8x512x512_2_2_1_1_0_0.lhsBatch by decide), dif_pos (show (1 : Fin S8x512x256.rank) ∈ dot_S8x512x256_S8x512x256_S8x512x512_2_2_1_1_0_0.lhsNonContracting by decide)]
  rfl
theorem lhs_2 (i : S8x512x512.Idx) (q : dot_S8x512x256_S8x512x256_S8x512x512_2_2_1_1_0_0.contr.Idx) : (dot_S8x512x256_S8x512x256_S8x512x512_2_2_1_1_0_0.lhsIdx i q 2).val = (q ⟨0, by decide⟩).val :=
  dot_S8x512x256_S8x512x256_S8x512x512_2_2_1_1_0_0.lhsIdx_val_of_single rfl i q
theorem rhs_0 (i : S8x512x512.Idx) (q : dot_S8x512x256_S8x512x256_S8x512x512_2_2_1_1_0_0.contr.Idx) : (dot_S8x512x256_S8x512x256_S8x512x512_2_2_1_1_0_0.rhsIdx i q 0).val = (i 0).val := by
  unfold DotDims.rhsIdx
  rw [dif_pos (show (0 : Fin S8x512x256.rank) ∈ dot_S8x512x256_S8x512x256_S8x512x512_2_2_1_1_0_0.rhsBatch by decide)]
  rfl
theorem rhs_1 (i : S8x512x512.Idx) (q : dot_S8x512x256_S8x512x256_S8x512x512_2_2_1_1_0_0.contr.Idx) : (dot_S8x512x256_S8x512x256_S8x512x512_2_2_1_1_0_0.rhsIdx i q 1).val = (i 2).val := by
  unfold DotDims.rhsIdx
  rw [dif_neg (show ¬(1 : Fin S8x512x256.rank) ∈ dot_S8x512x256_S8x512x256_S8x512x512_2_2_1_1_0_0.rhsBatch by decide), dif_pos (show (1 : Fin S8x512x256.rank) ∈ dot_S8x512x256_S8x512x256_S8x512x512_2_2_1_1_0_0.rhsNonContracting by decide)]
  rfl
theorem rhs_2 (i : S8x512x512.Idx) (q : dot_S8x512x256_S8x512x256_S8x512x512_2_2_1_1_0_0.contr.Idx) : (dot_S8x512x256_S8x512x256_S8x512x512_2_2_1_1_0_0.rhsIdx i q 2).val = (q ⟨0, by decide⟩).val :=
  dot_S8x512x256_S8x512x256_S8x512x512_2_2_1_1_0_0.rhsIdx_val_of_single rfl i q

/-- The batched product of two [8,512,256] blocks along their last axes, into the zero accumulator: entry (p, a, q) is
    the inner product of row (p, a) of the left block and row (p, q) of the right. -/
theorem matmul_apply3 (l r : FVec Ideal S8x512x256 .bf16) (p : Fin 8) (a q : Fin 512) :
    matmul dot_S8x512x256_S8x512x256_S8x512x512_2_2_1_1_0_0 none l r (constant S8x512x512 .f32 0x00000000#32) (ix3 p a q)
      = ∑ k : Fin 256, l (ix3 p a k) * r (ix3 p q k) := by
  simp only [matmul]
  rw [Ideal.matmul_constant_zero_apply, ← Equiv.sum_comp (contrEquiv1 dot_S8x512x256_S8x512x256_S8x512x512_2_2_1_1_0_0 256 rfl rfl).symm]
  refine Finset.sum_congr rfl fun k _ => ?_
  have hk := contrEquiv1_symm_val dot_S8x512x256_S8x512x256_S8x512x512_2_2_1_1_0_0 256 rfl rfl k
  have el : dot_S8x512x256_S8x512x256_S8x512x512_2_2_1_1_0_0.lhsIdx (ix3 p a q) ((contrEquiv1 dot_S8x512x256_S8x512x256_S8x512x512_2_2_1_1_0_0 256 rfl rfl).symm k) = ix3 p a k := funext fun ax => Fin.ext (by
    match ax with
    | ⟨0, _⟩ => exact lhs_0 _ _
    | ⟨1, _⟩ => exact lhs_1 _ _
    | ⟨2, _⟩ => exact (lhs_2 _ _).trans hk)
  have er : dot_S8x512x256_S8x512x256_S8x512x512_2_2_1_1_0_0.rhsIdx (ix3 p a q) ((contrEquiv1 dot_S8x512x256_S8x512x256_S8x512x512_2_2_1_1_0_0 256 rfl rfl).symm k) = ix3 p q k := funext fun ax => Fin.ext (by
    match ax with
    | ⟨0, _⟩ => exact rhs_0 _ _
    | ⟨1, _⟩ => exact rhs_1 _ _
    | ⟨2, _⟩ => exact (rhs_2 _ _).trans hk)
  rw [el, er]

/-- A block with every row divided by its clipped length. -/
theorem scaled_apply (x : FVec Ideal S8x512x256 .f32) (p : Fin 8) (r : Fin 512) (k : Fin 256) :
    divf x (broadcastTo S8x512x256 (maximumf (sqrt (shapeCast S8x512x1 (multiReduction .add [2] S8x512 (mulf x x) 0x00000000#32
      reduces_S8x512x256_S8x512 (.inl rfl) rfl) shapeCasts_S8x512_S8x512x1)) (broadcast S8x512x1 (Scalar.ofBits .f32 0x2B8CBCCC#32)))
      broadcasts_S8x512x1_S8x512x256) (ix3 p r k)
      = dir (fun d => x (ix3 p r d)) k := by
  rw [divf_apply, broadcastTo_ab1_abc_apply, maximumf_apply]
  show Ideal.div _ (max (Ideal.sqrt (shapeCast S8x512x1 _ _ (ix3 p r (0 : Fin 1)))) (Ideal.ofBits .f32 0x2B8CBCCC#32)) = _
  rw [shapeCast_ab_ab1_apply, multiReduction_add_last3]
  rfl

/-- The new running maximum: the old one against the column maxima of the similarities of the two blocks. -/
theorem pay6_apply (x0 x1 : Vec Ideal S8x512x256 .f32) (v30 : Vec Ideal S8x512 .f32) (p : Fin 8) (q : Fin 512) :
    k0_pay6 x0 x1 v30 (ix2 p q)
      = max (v30 (ix2 p q)) ((Finset.univ : Finset (Fin 512)).fold max negInf
          (fun r => dotp (fun d => x0 (ix3 p r d)) (fun d => x1 (ix3 p q d)))) := by
  unfold k0_pay6
  try dsimp only
  rw [maximumf_apply, multiReduction_max_mid3]
  unfold negInf
  refine congrArg (max _) (Finset.fold_congr fun r _ => ?_)
  rw [matmul_apply3]
  unfold dotp
  refine Finset.sum_congr rfl fun k _ => ?_
  rw [truncf_apply, truncf_apply, scaled_apply, scaled_apply]

/-- The running maximum is stored as it is. -/
theorem pay1_eq (v : FVec Ideal S8x512 .f32) : k0_pay1 v = v := by
  unfold k0_pay1; exact shapeCast_self _ _

/-- The new running sum: the old one plus the row sums of the finished maxima, the same in every lane. -/
theorem pay2_apply (v43 : Vec Ideal S8x512 .f32) (v46 : Vec Ideal S8x128 .f32) (p : Fin 8) (l : Fin 128) :
    k0_pay2 v43 v46 (ix2 p l) = v46 (ix2 p l) + ∑ q : Fin 512, v43 (ix2 p q) := by
  unfold k0_pay2
  try dsimp only
  rw [shapeCast_self, addf_apply, broadcastTo_a1_ab_apply, shapeCast_self, shapeCast_a_a1_apply, multiReduction_add_last2]

/-- The output: the square of the running sum's mean less the target. -/
theorem pay3_apply (v43 v46 : Vec Ideal S8x128 .f32) (i : S8x128.Idx) :
    k0_pay3 v43 v46 i = (Ideal.div (v43 i) width - v46 i) * (Ideal.div (v43 i) width - v46 i) := by
  unfold k0_pay3
  try dsimp only
  rw [shapeCast_self]
  rfl

/-- The cleared running sum. -/
theorem pay4_apply (i : S8x128.Idx) : k0_pay4 (F := Ideal) i = 0 := by
  unfold k0_pay4
  try dsimp only
  rw [shapeCast_self]
  exact Ideal.ofBits_zero_f32

/-- The running maximum's start. -/
theorem pay5_apply (i : S8x512.Idx) : k0_pay5 (F := Ideal) i = negInf := by
  unfold k0_pay5
  try dsimp only
  rw [shapeCast_self]
  rfl

end Cert.KernelIdeal.Pay

end
-- ==== Proof.Inv.lean ====
/-
  The running maximum and the running sum after every grid point, by induction on the point.

  After point t (batch block t / 32, column stretch (t / 8) % 4, row stretch t % 8) the [8,512] scratch holds, at
  (p, q), the maximum over the first (t % 8 + 1) row stretches of the similarities of batch entry (t / 32) * 8 + p with
  column ((t / 8) % 4) * 512 + q; the [8,128] scratch holds, in every lane of row p, the sum over the finished column
  stretches of that entry's best similarities; and at the last point of a batch block the output block holds the
  entry's loss in every lane.
-/
import proofs.«176510_j35716948033830_1_alg».proof.Proof.PointOuts
import proofs.«176510_j35716948033830_1_alg».proof.Proof.Pay

set_option maxRecDepth 16384

noncomputable section

namespace Cert.KernelIdeal.Inv

open Cert.KernelIdeal Cert.KernelIdeal.Gen Cert.KernelIdeal.PointOuts Cert.KernelIdeal.Pay Cert.SeqLoss
open Idealize.ShloMosaic Idealize.ShloMosaic.TcCoe Idealize.ShloMosaic.ValueIdx
open Idealize.SL Idealize.SL.Sem

variable (m : (ℓ : Loc nD τ sig) → Buf (Elt Ideal) ℓ)

/-- The similarities of the two arrays as the region finds them: batch entry b, column mm, as a function of the row. -/
abbrev sim (c : Dev nD) (b mm : ℕ) : ℕ → EReal := cosim (arr0 m c) (arr1 m c) b mm

/-- The best similarities of batch entry b, as a function of the column. -/
abbrev bst (c : Dev nD) (b : ℕ) : ℕ → EReal := best (arr0 m c) (arr1 m c) b

/-- The similarities of a point's two blocks are a 512 by 512 tile of the similarity table. -/
theorem tile_dot (c : Dev nD) (t : Fin cfg0.N) (p : Fin 8) (r q : Fin 512) :
    dotp (fun d => xblk m c t (ix3 p r d)) (fun d => yblk m c t (ix3 p q d))
      = sim m c (t.val / 32 * 8 + p.val) (t.val / 8 % 4 * 512 + q.val) (t.val % 8 * 512 + r.val) := by
  have hN : t.val < 64 := lt_of_lt_of_eq t.isLt N_0
  have hb : t.val / 32 * 8 + p.val < 16 := by have := p.isLt; omega
  have hr : t.val % 8 * 512 + r.val < 4096 := by have := r.isLt; omega
  have hq : t.val / 8 % 4 * 512 + q.val < 2048 := by have := q.isLt; omega
  have e1 : (fun d => xblk m c t (ix3 p r d)) = fun d => arr0 m c (ix3 ⟨_, hb⟩ ⟨_, hr⟩ d) :=
    funext fun d => xblk_apply m c t p r d hb hr
  have e2 : (fun d => yblk m c t (ix3 p q d)) = fun d => arr1 m c (ix3 ⟨_, hb⟩ ⟨_, hq⟩ d) :=
    funext fun d => yblk_apply m c t p q d hb hq
  show _ = dotp (rows (arr0 m c) _ _) (rows (arr1 m c) _ _)
  rw [rows_of_lt (A := 16) (N := 4096) (K := 256) (arr0 m c) _ _ hb hr,
    rows_of_lt (A := 16) (N := 2048) (K := 256) (arr1 m c) _ _ hb hq, e1, e2]

/-- The column maxima of a point's similarities are one stretch of the maximum over the rows. -/
theorem tile_fold (c : Dev nD) (t : Fin cfg0.N) (p : Fin 8) (q : Fin 512) :
    (Finset.univ : Finset (Fin 512)).fold max negInf
        (fun r => dotp (fun d => xblk m c t (ix3 p r d)) (fun d => yblk m c t (ix3 p q d)))
      = tileMax (sim m c (t.val / 32 * 8 + p.val) (t.val / 8 % 4 * 512 + q.val)) (t.val % 8) := by
  unfold tileMax
  exact Finset.fold_congr fun r _ => tile_dot m c t p r q

/-- What the two scratch arrays hold after point n. -/
def Holds (c : Dev nD) (n : ℕ) (hn : n < cfg0.N) : Prop :=
  (∀ (p : Fin 8) (q : Fin 512), (outsAt0 m c n hn).2.1 (ix2 p q)
      = accMax (sim m c (n / 32 * 8 + p.val) (n / 8 % 4 * 512 + q.val)) (n % 8 + 1))
  ∧ (∀ (p : Fin 8) (l : Fin 128), (outsAt0 m c n hn).2.2 (ix2 p l)
      = accSum (bst m c (n / 32 * 8 + p.val)) (n / 8 % 4 + (if n % 8 = 7 then 1 else 0)))

/-- A maximum started afresh at this point (the first row stretch of a sweep). -/
theorem max_first (c : Dev nD) (t : Fin cfg0.N) (h1 : t.val % 8 = 0)
    (e : (outsAt0 m c t.val t.isLt).2.1 = k0_pay1 (k0_pay6 (xblk m c t) (yblk m c t) (k0_pay5 (F := Ideal))))
    (p : Fin 8) (q : Fin 512) :
    (outsAt0 m c t.val t.isLt).2.1 (ix2 p q)
      = accMax (sim m c (t.val / 32 * 8 + p.val) (t.val / 8 % 4 * 512 + q.val)) (t.val % 8 + 1) := by
  rw [e, pay1_eq, pay6_apply, pay5_apply, tile_fold, h1]
  rfl

/-- A maximum carried on from the point before (a later row stretch of a sweep). -/
theorem max_next (c : Dev nD) (n : ℕ) (hn : n + 1 < cfg0.N) (h1 : ¬(n + 1) % 8 = 0)
    (e : (outsAt0 m c (n + 1) hn).2.1
      = k0_pay1 (k0_pay6 (xblk m c ⟨n + 1, hn⟩) (yblk m c ⟨n + 1, hn⟩) (outsAt0 m c n (Nat.lt_of_succ_lt hn)).2.1))
    (ih : Holds m c n (Nat.lt_of_succ_lt hn)) (p : Fin 8) (q : Fin 512) :
    (outsAt0 m c (n + 1) hn).2.1 (ix2 p q)
      = accMax (sim m c ((n + 1) / 32 * 8 + p.val) ((n + 1) / 8 % 4 * 512 + q.val)) ((n + 1) % 8 + 1) := by
  have ihp := ih.1 p q
  have a1 : n / 32 = (n + 1) / 32 := by omega
  have a2 : n / 8 % 4 = (n + 1) / 8 % 4 := by omega
  have a3 : n % 8 + 1 = (n + 1) % 8 := by omega
  rw [a1, a2, a3] at ihp
  rw [e, pay1_eq, pay6_apply, ihp]
  exact congrArg (max _) (tile_fold m c ⟨n + 1, hn⟩ p q)

/-- The finished maxima of a sweep, summed over the sweep's columns, are one stretch of the sum of the best similarities. -/
theorem sum_tile (c : Dev nD) (n : ℕ) (hn : n < cfg0.N) (h2 : n % 8 = 7)
    (h : ∀ (p : Fin 8) (q : Fin 512), (outsAt0 m c n hn).2.1 (ix2 p q)
      = accMax (sim m c (n / 32 * 8 + p.val) (n / 8 % 4 * 512 + q.val)) (n % 8 + 1)) (p : Fin 8) :
    ∑ q : Fin 512, (outsAt0 m c n hn).2.1 (ix2 p q) = tileSum (bst m c (n / 32 * 8 + p.val)) (n / 8 % 4) := by
  unfold tileSum
  refine Finset.sum_congr rfl fun q _ => ?_
  rw [h p q, h2]
  exact accMax_full _

/-- The running sum after the last row stretch of a sweep: one more stretch of the sum. -/
theorem sum_last (c : Dev nD) (n : ℕ) (hn : n + 1 < cfg0.N) (h2 : (n + 1) % 8 = 7)
    (o1 : (outsAt0 m c (n + 1) hn).2.1
      = k0_pay1 (k0_pay6 (xblk m c ⟨n + 1, hn⟩) (yblk m c ⟨n + 1, hn⟩) (outsAt0 m c n (Nat.lt_of_succ_lt hn)).2.1))
    (o2 : (outsAt0 m c (n + 1) hn).2.2
      = k0_pay2 (k0_pay1 (k0_pay6 (xblk m c ⟨n + 1, hn⟩) (yblk m c ⟨n + 1, hn⟩) (outsAt0 m c n (Nat.lt_of_succ_lt hn)).2.1))
          (outsAt0 m c n (Nat.lt_of_succ_lt hn)).2.2)
    (ih : Holds m c n (Nat.lt_of_succ_lt hn))
    (s0 : ∀ (p : Fin 8) (q : Fin 512), (outsAt0 m c (n + 1) hn).2.1 (ix2 p q)
      = accMax (sim m c ((n + 1) / 32 * 8 + p.val) ((n + 1) / 8 % 4 * 512 + q.val)) ((n + 1) % 8 + 1))
    (p : Fin 8) (l : Fin 128) :
    (outsAt0 m c (n + 1) hn).2.2 (ix2 p l)
      = accSum (bst m c ((n + 1) / 32 * 8 + p.val)) ((n + 1) / 8 % 4 + (if (n + 1) % 8 = 7 then 1 else 0)) := by
  have ihp := ih.2 p l
  have b1 : n / 32 = (n + 1) / 32 := by omega
  have ak : n / 8 % 4 + (if n % 8 = 7 then 1 else 0) = (n + 1) / 8 % 4 := by rw [if_neg (by omega)]; omega
  rw [b1, ak] at ihp
  rw [o2, ← o1, pay2_apply, sum_tile m c (n + 1) hn h2 s0 p, ihp, if_pos h2]
  rfl

/-- THE INDUCTION over the grid points. -/
theorem holds (c : Dev nD) : ∀ (n : ℕ) (hn : n < cfg0.N), Holds m c n hn := by
  intro n
  induction n with
  | zero =>
    intro hn
    have o := outs_A m c ⟨0, hn⟩ rfl rfl (by show ¬(0 % 8 = 7); decide) (by show ¬(0 % 32 = 31); decide)
    have o2 : (outsAt0 m c 0 hn).2.2 = k0_pay4 (F := Ideal) := o.2
    refine ⟨fun p q => max_first m c ⟨0, hn⟩ rfl o.1 p q, fun p l => ?_⟩
    rw [o2, pay4_apply]
    rfl
  | succ n ih =>
    intro hn
    have hN : n + 1 < 64 := lt_of_lt_of_eq hn N_0
    have hn' : n < cfg0.N := Nat.lt_of_succ_lt hn
    have ihn := ih hn'
    by_cases h1 : (n + 1) % 8 = 0
    · by_cases h0 : (n + 1) % 32 = 0
      · -- the first point of the second batch block
        have o := outs_A m c ⟨n + 1, hn⟩ h0 h1 (by show ¬(n + 1) % 8 = 7; omega) (by show ¬(n + 1) % 32 = 31; omega)
        have o2 : (outsAt0 m c (n + 1) hn).2.2 = k0_pay4 (F := Ideal) := o.2
        refine ⟨fun p q => max_first m c ⟨n + 1, hn⟩ h1 o.1 p q, fun p l => ?_⟩
        have ak : (n + 1) / 8 % 4 + (if (n + 1) % 8 = 7 then 1 else 0) = 0 := by rw [if_neg (by omega)]; omega
        rw [o2, pay4_apply, ak]
        rfl
      · -- the first row stretch of a later sweep
        have o := outs_D m c ⟨n + 1, hn⟩ h0 h1 (by show ¬(n + 1) % 8 = 7; omega) (by show ¬(n + 1) % 32 = 31; omega)
        have o2 : (outsAt0 m c (n + 1) hn).2.2 = (outsAt0 m c n hn').2.2 := o.2
        refine ⟨fun p q => max_first m c ⟨n + 1, hn⟩ h1 o.1 p q, fun p l => ?_⟩
        have ihp := ihn.2 p l
        have b1 : n / 32 = (n + 1) / 32 := by omega
        have ak : n / 8 % 4 + (if n % 8 = 7 then 1 else 0) = (n + 1) / 8 % 4 + (if (n + 1) % 8 = 7 then 1 else 0) := by
          rw [if_pos (by omega), if_neg (by omega)]; omega
        rw [b1, ak] at ihp
        rw [o2, ihp]
    · by_cases h2 : (n + 1) % 8 = 7
      · by_cases h3 : (n + 1) % 32 = 31
        · -- the last point of a batch block
          have o := outs_E m c ⟨n + 1, hn⟩ (by show ¬(n + 1) % 32 = 0; omega) h1 h2 h3
          have o1 : (outsAt0 m c (n + 1) hn).2.1
              = k0_pay1 (k0_pay6 (xblk m c ⟨n + 1, hn⟩) (yblk m c ⟨n + 1, hn⟩) (outsAt0 m c n hn').2.1) := o.1
          have o2 : (outsAt0 m c (n + 1) hn).2.2
              = k0_pay2 (k0_pay1 (k0_pay6 (xblk m c ⟨n + 1, hn⟩) (yblk m c ⟨n + 1, hn⟩) (outsAt0 m c n hn').2.1))
                  (outsAt0 m c n hn').2.2 := o.2.1
          have s0 := fun p q => max_next m c n hn h1 o1 ihn p q
          exact ⟨s0, fun p l => sum_last m c n hn h2 o1 o2 ihn s0 p l⟩
        · -- the last row stretch of an earlier sweep
          have o := outs_C m c ⟨n + 1, hn⟩ (by show ¬(n + 1) % 32 = 0; omega) h1 h2 h3
          have o1 : (outsAt0 m c (n + 1) hn).2.1
              = k0_pay1 (k0_pay6 (xblk m c ⟨n + 1, hn⟩) (yblk m c ⟨n + 1, hn⟩) (outsAt0 m c n hn').2.1) := o.1
          have o2 : (outsAt0 m c (n + 1) hn).2.2
              = k0_pay2 (k0_pay1 (k0_pay6 (xblk m c ⟨n + 1, hn⟩) (yblk m c ⟨n + 1, hn⟩) (outsAt0 m c n hn').2.1))
                  (outsAt0 m c n hn').2.2 := o.2
          have s0 := fun p q => max_next m c n hn h1 o1 ihn p q
          exact ⟨s0, fun p l => sum_last m c n hn h2 o1 o2 ihn s0 p l⟩
      · -- a point inside a sweep
        have o := outs_B m c ⟨n + 1, hn⟩ (by show ¬(n + 1) % 32 = 0; omega) h1 h2 (by show ¬(n + 1) % 32 = 31; omega)
        have o1 : (outsAt0 m c (n + 1) hn).2.1
            = k0_pay1 (k0_pay6 (xblk m c ⟨n + 1, hn⟩) (yblk m c ⟨n + 1, hn⟩) (outsAt0 m c n hn').2.1) := o.1
        have o2 : (outsAt0 m c (n + 1) hn).2.2 = (outsAt0 m c n hn').2.2 := o.2
        refine ⟨fun p q => max_next m c n hn h1 o1 ihn p q, fun p l => ?_⟩
        have ihp := ihn.2 p l
        have b1 : n / 32 = (n + 1) / 32 := by omega
        have ak : n / 8 % 4 + (if n % 8 = 7 then 1 else 0) = (n + 1) / 8 % 4 + (if (n + 1) % 8 = 7 then 1 else 0) := by
          rw [if_neg (by omega), if_neg h2]; omega
        rw [b1, ak] at ihp
        rw [o2, ihp]

/-- At the last point of a batch block the output block holds, in every lane, the square of the mean best similarity
    less the target's entry. -/
theorem out_last (c : Dev nD) (t : Fin cfg0.N) (h3 : t.val % 32 = 31) (p : Fin 8) (l : Fin 128) :
    (outsAt0 m c t.val t.isLt).1 (ix2 p l)
      = (Ideal.div (total (arr0 m c) (arr1 m c) (t.val / 32 * 8 + p.val)) width - tblk m c t (ix2 p l))
        * (Ideal.div (total (arr0 m c) (arr1 m c) (t.val / 32 * 8 + p.val)) width - tblk m c t (ix2 p l)) := by
  have hN : t.val < 64 := lt_of_lt_of_eq t.isLt N_0
  have o := outs_E m c t (by omega) (by omega) (by omega) h3
  have hs := (holds m c t.val t.isLt).2 p l
  have ak : t.val / 8 % 4 + (if t.val % 8 = 7 then 1 else 0) = 4 := by rw [if_pos (by omega)]; omega
  rw [ak, accSum_full] at hs
  rw [o.2.2, ← o.2.1, pay3_apply, hs]
  rfl

end Cert.KernelIdeal.Inv

end
-- ==== Proof.KernelValue.lean ====
/-
  The kernel program's result is the loss of Spec.lean.

  The output array is written back once per batch block, at the block's last grid point, and the two blocks tile it:
  entry (b, l) ends at the loss of batch entry b, in every lane l. The lines after the kernel take lane 0 of every row
  and add the sixteen entries up from zero; the lines before it spread the target over 128 lanes.
-/
import proofs.«176510_j35716948033830_1_alg».proof.Proof.Inv
import Idealize.ShloMosaic.Lib.StableHlo.Run

set_option maxRecDepth 16384

noncomputable section

namespace Cert.KernelIdeal.KernelValue

open Cert.KernelIdeal Cert.KernelIdeal.Gen Cert.KernelIdeal.PointOuts Cert.KernelIdeal.Inv Cert.SeqLoss
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## The target as the kernel finds it -/

/-- The third operand of the kernel is the target with every entry repeated along 128 lanes. -/
theorem arrT_apply (c : Dev nD) (b : Fin 16) (l : Fin 128) :
    arrT m c (ix2 b l) = m ((c.tc : Thread nD τ).loc main_arg2) (ix1 b) := by
  have e : (V m c main_v1 : S16x128.Idx → EReal)
      = broadcastInDim S16x128 ![0, 1] bcast_S16x1_S16x128_0_1
          (shapeCast S16x1 (m ((c.tc : Thread nD τ).loc main_arg2)) shapeCasts_S16_S16x1) := by
    show StableHlo.after hostOps0 (fun b => m (c, b)) (Proc.devRef .tc main_v1) = _
    after_results
    rfl
  show (V m c main_v1 : S16x128.Idx → EReal) (ix2 b l) = _
  rw [e, broadcastInDim_apply _ bcast_S16x1_S16x128_0_1 _ (ix2 b l) (ix2 b (0 : Fin 1)) (fun a => match a with
    | ⟨0, _⟩ => by show b.val = if (16 : Nat) = 1 then 0 else b.val; rw [if_neg (by decide)]
    | ⟨1, _⟩ => by show 0 = if (1 : Nat) = 1 then 0 else l.val; rw [if_pos rfl])]
  exact LibRank3Layout.shapeCast_a_a1_apply _ _ b 0

/-! ## The output array after the run -/

/-- What the output array ends holding: the loss of the row's batch entry, in every lane. -/
def G (c : Dev nD) : S16x128.Idx → EReal := fun i =>
  (Ideal.div (total (arr0 m c) (arr1 m c) (i 0).val) width - arrT m c i)
    * (Ideal.div (total (arr0 m c) (arr1 m c) (i 0).val) width - arrT m c i)

/-- What a batch block's last point writes back is that block of `G`. -/
theorem flushed_eq (c : Dev nD) (t : Fin cfg0.N) (hf : (cfg0.win 3).flush t = true) :
    (dats m 0 c).flushed 3 t = ((cfg0.win 3).blk t).view.read (Elt Ideal) (G m c) := by
  have h3 : t.val % 32 = 31 := (flush0_3 t).mp hf
  have hN : t.val < 64 := lt_of_lt_of_eq t.isLt N_0
  obtain ⟨e0, e1⟩ := idx3 t
  show (cfg0.win 3).cut (grid0.coords t) ((dats m 0 c).after 3 t) = _
  rw [after0_3]
  funext y
  obtain ⟨p, l, rfl⟩ : ∃ (p : Fin 8) (l : Fin 128), y = ix2 p l := ⟨y 0, y 1, eq_ix2 y⟩
  have hb : t.val / 32 * 8 + p.val < 16 := by have := p.isLt; omega
  have hemb : ((cfg0.win 3).blk t).view.emb (ix2 p l) = ix2 ⟨t.val / 32 * 8 + p.val, hb⟩ l := by
    funext a; apply Fin.ext
    match a with
    | ⟨0, _⟩ => show win0_3.index t (0 : Fin 2) * 8 + 1 * p.val = t.val / 32 * 8 + p.val; omega
    | ⟨1, _⟩ => show win0_3.index t (1 : Fin 2) * 128 + 1 * l.val = l.val; omega
  show (outsAt0 m c t.val t.isLt).1 (ix2 p l) = G m c (((cfg0.win 3).blk t).view.emb (ix2 p l))
  rw [hemb, out_last m c t h3 p l, tblk_apply m c t p l hb]
  rfl

/-- An index of the output array is in point t's block iff each coordinate is in the block's range on its axis. -/
theorem mem_blk3 (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v2).slice (win0_3.rect t)).set ↔ _
  rw [View.set_slice_whole, Rect.mem_set_unit]
  exact Iff.rfl

/-- Every row of the output array is in the block its batch block's last point writes back. -/
theorem cover (i : S16x128.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hlt : (i 0).val / 8 * 32 + 31 < cfg0.N := by rw [show cfg0.N = 64 from N_0]; omega
  obtain ⟨e0, e1⟩ := idx3 ⟨(i 0).val / 8 * 32 + 31, hlt⟩
  have e0' : win0_3.index ⟨(i 0).val / 8 * 32 + 31, hlt⟩ (0 : Fin 2) = (i 0).val / 8 := by
    rw [e0]; show ((i 0).val / 8 * 32 + 31) / 32 = _; omega
  refine ⟨⟨(i 0).val / 8 * 32 + 31, hlt⟩, (flush0_3 _).mpr (by show ((i 0).val / 8 * 32 + 31) % 32 = 31; omega), ?_⟩
  rw [mem_blk3]
  intro a
  match a with
  | ⟨0, _⟩ =>
    show win0_3.index ⟨(i 0).val / 8 * 32 + 31, hlt⟩ (0 : Fin 2) * 8 ≤ (i 0).val
      ∧ (i 0).val < win0_3.index ⟨(i 0).val / 8 * 32 + 31, hlt⟩ (0 : Fin 2) * 8 + 8
    omega
  | ⟨1, _⟩ =>
    show win0_3.index ⟨(i 0).val / 8 * 32 + 31, hlt⟩ (1 : Fin 2) * 128 ≤ (i 1).val
      ∧ (i 1).val < win0_3.index ⟨(i 0).val / 8 * 32 + 31, hlt⟩ (1 : Fin 2) * 128 + 128
    omega

/-- THE OUTPUT ARRAY after the run. -/
theorem final (c : Dev nD) : (dats m 0 c).arrAt 3 cfg0.N = G m c :=
  (dats m 0 c).arrAt_eq_of_cover 3 (G m c) (fun t hf => flushed_eq m c t hf) cover

/-! ## The lines after the kernel -/

/-- A one-column matrix read as a vector: entry b is the column's entry (b, 0). -/
theorem uncolumn_apply {α : Type} {a : ℕ} (x : (⟨2, ![a, 1]⟩ : Shape).Idx → α)
    (h : (⟨2, ![a, 1]⟩ : Shape).ShapeCasts ⟨1, ![a]⟩) (b : Fin a) :
    shapeCast ⟨1, ![a]⟩ x h (ix1 b) = x (ix2 b (0 : Fin 1)) :=
  shapeCast_apply x h _ _ (by
    rw [Shape.rowMajor_val_two, Shape.rowMajor_val_one]
    show b.val * 1 + 0 = b.val
    omega)

/-- The program's result: lane 0 of every row of the output array, added up from the zero pattern. -/
theorem tail_eq (c : Dev nD) :
    @Eq (S_.Idx → EReal) (Pipeline.afterTail₀ cfgs (dats m) 0 (V0 m) [hostOps1] c main_v5)
      (Host.reduceAdd (F := Ideal) (shapeCast S16 (extractStridedSlice S16x1 ![0, 0] (G m c) slices_S16x128_S16x1_0_0) shapeCasts_S16x1_S16)
          (constant S_ .f32 0x00000000#32) reducesTo_S16_S_d0 h_S_) := by
  have hw : Pipeline.withArrays (cfgs 0).spec c (V0 m c) (fun w => (dats m 0 c).arrAt w (cfgs 0).N) (Proc.devRef .tc main_v2)
      = G m c := (Pipeline.withArrays_arr spec0 launch0.win.arr_inj c _ _ 3).trans (final m c)
  unfold Pipeline.afterTail₀
  show StableHlo.after hostOps1 _ (Proc.devRef .tc main_v5) = _
  after_results
  rw [hw]
  refine congrArg (fun f : S16.Idx → EReal => Host.reduceAdd (F := Ideal) f (constant S_ .f32 0x00000000#32) reducesTo_S16_S_d0 h_S_) ?_
  funext i
  rfl

/-- Lane 0 of row b of the output array is the loss of batch entry b of the argument arrays. -/
theorem G_lane0 (c : Dev nD) (b : Fin 16) :
    G m c (ix2 b (0 : Fin 128))
      = loss (m ((c.tc : Thread nD τ).loc main_arg0)) (m ((c.tc : Thread nD τ).loc main_arg1))
          (m ((c.tc : Thread nD τ).loc main_arg2)) b.val := by
  have h0 : arr0 m c = m ((c.tc : Thread nD τ).loc main_arg0) := V_main_arg0 m c
  have h1 : arr1 m c = m ((c.tc : Thread nD τ).loc main_arg1) := V_main_arg1 m c
  have ht : arrT m c (ix2 b (0 : Fin 128)) = entry (A := 16) (m ((c.tc : Thread nD τ).loc main_arg2)) b.val :=
    (arrT_apply m c b 0).trans (entry_of_lt (A := 16) _ b.val b.isLt).symm
  show (Ideal.div (total (arr0 m c) (arr1 m c) b.val) width - arrT m c (ix2 b (0 : Fin 128)))
    * (Ideal.div (total (arr0 m c) (arr1 m c) b.val) width - arrT m c (ix2 b (0 : Fin 128))) = _
  rw [ht, h0, h1]
  rfl

/-- Lane 0 of every row of an [a, b] array, as a vector. -/
theorem lane0_apply (X : S16x128.Idx → EReal) (b : Fin 16) :
    shapeCast S16 (extractStridedSlice S16x1 ![0, 0] X slices_S16x128_S16x1_0_0) shapeCasts_S16x1_S16 (ix1 b)
      = X (ix2 b (0 : Fin 128)) := by
  rw [uncolumn_apply]
  exact extractStridedSlice_apply ![0, 0] X slices_S16x128_S16x1_0_0 (ix2 b (0 : Fin 1)) (ix2 b (0 : Fin 128))
    (fun a => match a with
      | ⟨0, _⟩ => by show b.val = 0 + b.val; omega
      | ⟨1, _⟩ => by show 0 = 0 + 0; rfl)

/-- A vector added up from the zero pattern. -/
theorem sum16 (y : S16.Idx → EReal) (i : S_.Idx) :
    Host.reduceAdd (F := Ideal) y (constant S_ .f32 0x00000000#32) reducesTo_S16_S_d0 h_S_ i
      = Ideal.ofBits .f32 0x00000000#32 + ∑ j : S16.Idx, y j := by
  simp only [Host.reduceAdd, Ideal.hostReduceAdd_def]
  exact Ideal.hostReduceAdd_total reducesTo_S16_S_d0 (fun b => b.elim0) y _ i

/-- The kernel program's result is the loss of the argument arrays. -/
theorem tail_value (c : Dev nD) :
    @Eq (S_.Idx → EReal) (Pipeline.afterTail₀ cfgs (dats m) 0 (V0 m) [hostOps1] c main_v5)
      (fun _ => result (m ((c.tc : Thread nD τ).loc main_arg0)) (m ((c.tc : Thread nD τ).loc main_arg1))
          (m ((c.tc : Thread nD τ).loc main_arg2))) := by
  refine (tail_eq m c).trans (funext fun i => ?_)
  refine (sum16 _ i).trans ?_
  unfold result
  refine congrArg (_ + ·) (Finset.sum_congr rfl fun j _ => ?_)
  have hj : j = ix1 (j 0) := eq_ix1 j
  rw [hj]
  exact (lane0_apply (G m c) (j 0)).trans (G_lane0 m c (j 0))

/-! ## The run -/

/-- Every weakly fair execution of the kernel program terminates with its result at the loss of the argument arrays,
    which end unchanged. -/
theorem run : θ_run defs (onTc (τ := τ) (main (F := Ideal))) ⟨m, fun _ => 0, ρ⟩ fun r => ∀ c : Dev nD,
      r.2.mem ((c.tc : Thread nD τ).loc main_v5)
        = (fun _ => result (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference program's result is the loss of Spec.lean.

  Read one operation at a time: each row of either array is divided by its clipped Euclidean length, the batched
  product of the scaled arrays holds the similarities, a maximum over the first array's rows and a sum over the second
  array's rows follow, then the division by 2048, the subtraction of the target, the square, a factor that is the
  constant one whichever way its selecting comparison falls, and the sum over the batch.
-/
import proofs.«176510_j35716948033830_1_alg».proof.Proof.Gen.ReferenceIdeal.Read
import proofs.«176510_j35716948033830_1_alg».proof.Proof.Spec

set_option maxRecDepth 16384

noncomputable section

namespace Cert.ReferenceIdeal.RefValue

open Cert.ReferenceIdeal Cert.ReferenceIdeal.Gen Cert.ReferenceIdeal.Read Cert.SeqLoss
open Idealize.ShloMosaic Idealize.ShloMosaic.ValueIdx

variable (x0 : (⟨S16x4096x256, .f32⟩ : BufTy).Contents (Elt Ideal)) (x1 : (⟨S16x2048x256, .f32⟩ : BufTy).Contents (Elt Ideal))
  (x2 : (⟨S16, .f32⟩ : BufTy).Contents (Elt Ideal))

/-- A row of the first array divided by its clipped length. -/
theorem v4_apply (b : Fin 16) (n : Fin 4096) (k : Fin 256) :
    val_main_v4 (F := Ideal) x0 (ix3 b n k) = dir (fun d => x0 (ix3 b n d)) k := by
  have e : ∀ k' : Fin 256, idx_main_call0_v1 (idx_main_call0_v2 (idx_main_v3 (ix3 b n k))) k' = ix3 b n k' := fun k' =>
    funext fun a => Fin.ext (by match a with | ⟨0, _⟩ => rfl | ⟨1, _⟩ => rfl | ⟨2, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e]
  unfold dir len eps
  simp only [Ideal.hostDivf_def, Ideal.maximumf_def, Ideal.hostUnary_sqrt_def, Ideal.mulf_def, Ideal.ofBits_def,
    Ideal.ofBits_zero_f32, zero_add]

/-- A row of the second array divided by its clipped length. -/
theorem v9_apply (b : Fin 16) (n : Fin 2048) (k : Fin 256) :
    val_main_v9 (F := Ideal) x1 (ix3 b n k) = dir (fun d => x1 (ix3 b n d)) k := by
  have e : ∀ k' : Fin 256, idx_main_call1_v1 (idx_main_call1_v2 (idx_main_v8 (ix3 b n k))) k' = ix3 b n k' := fun k' =>
    funext fun a => Fin.ext (by match a with | ⟨0, _⟩ => rfl | ⟨1, _⟩ => rfl | ⟨2, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e]
  unfold dir len eps
  simp only [Ideal.hostDivf_def, Ideal.maximumf_def, Ideal.hostUnary_sqrt_def, Ideal.mulf_def, Ideal.ofBits_def,
    Ideal.ofBits_zero_f32, zero_add]

/-- The batched product holds the similarities. -/
theorem v10_apply (b : Fin 16) (n : Fin 4096) (m : Fin 2048) :
    val_main_v10 (F := Ideal) x0 x1 (ix3 b n m) = cosim x0 x1 b.val m.val n.val := by
  rw [val_main_v10_apply]
  unfold cosim dotp
  rw [rows_of_lt (A := 16) (N := 4096) (K := 256) x0 b.val n.val b.isLt n.isLt,
    rows_of_lt (A := 16) (N := 2048) (K := 256) x1 b.val m.val b.isLt m.isLt]
  refine Finset.sum_congr rfl fun k _ => ?_
  have el : lidx_main_v10 (ix3 b n m) k = ix3 b n k :=
    funext fun a => Fin.ext (by match a with | ⟨0, _⟩ => rfl | ⟨1, _⟩ => rfl | ⟨2, _⟩ => rfl)
  have er : ridx_main_v10 (ix3 b n m) k = ix3 b m k :=
    funext fun a => Fin.ext (by match a with | ⟨0, _⟩ => rfl | ⟨1, _⟩ => rfl | ⟨2, _⟩ => rfl)
  rw [el, er, v4_apply, v9_apply]

/-- The maximum over the first array's rows. -/
theorem v11_apply (b : Fin 16) (m : Fin 2048) :
    val_main_v11 (F := Ideal) x0 x1 (ix2 b m) = best x0 x1 b.val m.val := by
  unfold val_main_v11
  rw [Host.reduce_eq_fold_single FloatOps.maximumf _ _ reducesTo_S16x4096x2048_S16x2048_d1 (by decide) h_S_]
  unfold best fullMax negInf
  show (Finset.univ : Finset (Fin 4096)).fold max (Ideal.ofBits .f32 0xFF800000#32) _ = _
  refine Finset.fold_congr fun n _ => ?_
  have e : Shape.Reduces.lift (s := S16x4096x2048) (t := S16x2048) (a := 1) (by decide) (ix2 b m) n = ix3 b n m :=
    funext fun a => Fin.ext (by match a with | ⟨0, _⟩ => rfl | ⟨1, _⟩ => rfl | ⟨2, _⟩ => rfl)
  show val_main_v10 (F := Ideal) x0 x1 (Shape.Reduces.lift (s := S16x4096x2048) (t := S16x2048) (a := 1) _ (ix2 b m) n) = _
  rw [e, v10_apply]

/-- The sum over the second array's rows. -/
theorem v12_apply (b : Fin 16) : val_main_v12 (F := Ideal) x0 x1 (ix1 b) = total x0 x1 b.val := by
  rw [val_main_v12_apply, val_main_cst_2_apply]
  unfold total
  simp only [Ideal.ofBits_def, Ideal.ofBits_zero_f32, zero_add]
  refine Finset.sum_congr rfl fun k _ => ?_
  have e : idx_main_v12 (ix1 b) k = ix2 b k :=
    funext fun a => Fin.ext (by match a with | ⟨0, _⟩ => rfl | ⟨1, _⟩ => rfl)
  rw [e, v11_apply]

/-- A selection between the constant one and the constant one is the constant one. -/
theorem select_same {α : Type} (c : BitVec 1) (a : α) : Scalar.select c a a = a := by
  unfold Scalar.select; exact ite_self _

/-- The pattern of 1.0 is the extended real one. -/
theorem one_f32 : Ideal.ofBits .f32 0x3F800000#32 = 1 := IdealRules.sign_bit.ideal_onePat .f32

/-- One batch entry's loss. -/
theorem v20_apply (b : Fin 16) : val_main_v20 (F := Ideal) x0 x1 x2 (ix1 b) = loss x0 x1 x2 b.val := by
  rw [val_main_v20_apply, val_main_v19_apply, val_main_call2_v0_apply, val_main_call2_v1_apply, val_main_cst_5_apply,
    val_main_cst_6_apply, select_same, val_main_v16_apply, val_main_v15_apply, val_main_v14_apply, val_main_v13_apply,
    val_main_cst_3_apply, v12_apply]
  unfold loss width
  rw [entry_of_lt (A := 16) x2 b.val b.isLt]
  simp only [Ideal.hostDivf_def, Ideal.mulf_def, Ideal.subf_def, Ideal.ofBits_def, one_f32, mul_one]

/-- The reference's result. -/
theorem v21_apply (i : S_.Idx) : val_main_v21 (F := Ideal) x0 x1 x2 i = result x0 x1 x2 := by
  rw [val_main_v21_apply, val_main_cst_7_apply]
  unfold result
  refine congrArg (_ + ·) (Finset.sum_congr rfl fun j _ => ?_)
  exact (congrArg (val_main_v20 (F := Ideal) x0 x1 x2) (eq_ix1 j)).trans (v20_apply x0 x1 x2 (j 0))

end Cert.ReferenceIdeal.RefValue

end
-- ==== Proof.lean ====
/-
  The certificate: a tiled kernel for a sequence-similarity loss computes, over the extended reals, what its plain
  reference computes.

  Both programs scale every row of two arrays to unit length (the length clipped below by a small constant), take
  for every batch entry and every row of the second array the largest inner product with a row of the first, average
  these maxima, and sum over the batch the squared distance of the average from a target. The kernel visits the
  rows of the first array in eight stretches and the rows of the second in four, keeping a running maximum and a
  running sum between grid points; a maximum over stretches is the whole maximum and a sum over stretches the whole
  sum, whatever the entries are, so the two results are equal on every input and the finiteness precondition is
  never opened. The reference's last factor is a selection between the constant one and the constant one.

  The three frames are the generated ones (the reference's is its generated run with the result dropped); the
  idealization rewrote nothing, so its soundness claim is trivial; the value claim joins the kernel's run (the
  induction over the grid points, KernelValue.lean) and the reference's run read one operation at a time
  (RefValue.lean) at the one function of Spec.lean.
-/
import proofs.«176510_j35716948033830_1_alg».proof.Defs
import proofs.«176510_j35716948033830_1_alg».proof.Proof.Gen.Kernel
import proofs.«176510_j35716948033830_1_alg».proof.Proof.Gen.Kernel.Skeleton
import proofs.«176510_j35716948033830_1_alg».proof.Proof.Gen.Kernel.Launch
import proofs.«176510_j35716948033830_1_alg».proof.Proof.Gen.Kernel.Points
import proofs.«176510_j35716948033830_1_alg».proof.Proof.Gen.Kernel.Frame
import proofs.«176510_j35716948033830_1_alg».proof.Proof.Gen.KernelIdeal
import proofs.«176510_j35716948033830_1_alg».proof.Proof.Gen.KernelIdeal.Skeleton
import proofs.«176510_j35716948033830_1_alg».proof.Proof.Gen.KernelIdeal.Launch
import proofs.«176510_j35716948033830_1_alg».proof.Proof.Gen.KernelIdeal.Points
import proofs.«176510_j35716948033830_1_alg».proof.Proof.Gen.KernelIdeal.Frame
import proofs.«176510_j35716948033830_1_alg».proof.Proof.Gen.ReferenceIdeal
import proofs.«176510_j35716948033830_1_alg».proof.Proof.Gen.ReferenceIdeal.Run
import proofs.«176510_j35716948033830_1_alg».proof.Proof.Gen.ReferenceIdeal.Read
import proofs.«176510_j35716948033830_1_alg».proof.Proof.Gen.Pre_finite_inputs
import proofs.«176510_j35716948033830_1_alg».proof.Proof.KernelValue
import proofs.«176510_j35716948033830_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the argument arrays, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  funext i
  rw [Cert.ReferenceIdeal.RefValue.v21_apply, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
